-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x256 : Shape := ⟨3, ![4, 4096, 256]⟩
abbrev S_ : Shape := ⟨0, ![]⟩

class Facts : Prop where
  bcast_S_S4x4096x256 : S_.BroadcastsInDim S4x4096x256 (![] : Fin 0 → Fin S4x4096x256.rank)
  reducesTo_S4x4096x256_S_d0_1_2 : S4x4096x256.ReducesTo [0, 1, 2] S_
  h_S_ : 0 < S_.numel

variable [Facts]

def fn {F : FTy → Type} [FloatOps F] (main_arg0 : FVec F S4x4096x256 .f32) (main_arg1 : FVec F S4x4096x256 .f32) : IVec S_ 1 :=
  let main_v0 : FVec F S4x4096x256 .f32 := Host.absf main_arg0
  let main_cst : FVec F S_ .f32 := constant S_ .f32 0x7F800000#32
  let main_v1 : FVec F S4x4096x256 .f32 := broadcastInDim S4x4096x256 ![] bcast_S_S4x4096x256 main_cst
  let main_v2 : IVec S4x4096x256 1 := cmpf .olt main_v0 main_v1
  let main_c : IVec S_ 1 := constantI S_ 1 1#1
  let main_v3 : IVec S_ 1 := (fun x v => Host.reduce IntOp.andi x v reducesTo_S4x4096x256_S_d0_1_2 h_S_) main_v2 main_c
  let main_v4 : FVec F S4x4096x256 .f32 := Host.absf main_arg1
  let main_cst_0 : FVec F S_ .f32 := constant S_ .f32 0x7F800000#32
  let main_v5 : FVec F S4x4096x256 .f32 := broadcastInDim S4x4096x256 ![] bcast_S_S4x4096x256 main_cst_0
  let main_v6 : IVec S4x4096x256 1 := cmpf .olt main_v4 main_v5
  let main_c_1 : IVec S_ 1 := constantI S_ 1 1#1
  let main_v7 : IVec S_ 1 := (fun x v => Host.reduce IntOp.andi x v reducesTo_S4x4096x256_S_d0_1_2 h_S_) main_v6 main_c_1
  let main_v8 : IVec S_ 1 := andi main_v3 main_v7
  main_v8
-- ==== Kernel.lean ====
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S4x4096x4096 : Shape := ⟨3, ![4, 4096, 4096]⟩
abbrev S1x1024x1 : Shape := ⟨3, ![1, 1024, 1]⟩
abbrev S1x1x1024 : Shape := ⟨3, ![1, 1, 1024]⟩
abbrev S1x1024x256 : Shape := ⟨3, ![1, 1024, 256]⟩
abbrev S1x1024x1024 : Shape := ⟨3, ![1, 1024, 1024]⟩
abbrev S1024x256 : Shape := ⟨2, ![1024, 256]⟩
abbrev S1024x1024 : Shape := ⟨2, ![1024, 1024]⟩
abbrev S1024x1 : Shape := ⟨2, ![1024, 1]⟩
abbrev S1x1024 : Shape := ⟨2, ![1, 1024]⟩

abbrev nBuf : Space → Nat
  | .hbm => 12
  | .vmem => 10
  | .smem => 0
  | _ => 0

abbrev bufTy : (tb : Table) → Fin (tcTables nBuf tb) → BufTy
  | .hbm, ⟨0, _⟩ => ⟨S4x4096x256, .f32⟩
  | .hbm, ⟨1, _⟩ => ⟨S4x4096x256, .f32⟩
  | .hbm, ⟨2, _⟩ => ⟨S4x4096x256, .f32⟩
  | .hbm, ⟨3, _⟩ => ⟨S_, .f32⟩
  | .hbm, ⟨4, _⟩ => ⟨S4x4096, .f32⟩
  | .hbm, ⟨5, _⟩ => ⟨S4x4096x1, .f32⟩
  | .hbm, ⟨6, _⟩ => ⟨S4x4096x256, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S4x1x4096, .f32⟩
  | .hbm, ⟨11, _⟩ => ⟨S4x4096x4096, .f32⟩
  | .local _ .vmem, ⟨0, _⟩ => ⟨S1x1024x1, .f32⟩
  | .local _ .vmem, ⟨1, _⟩ => ⟨S1x1024x1, .f32⟩
  | .local _ .vmem, ⟨2, _⟩ => ⟨S1x1x1024, .f32⟩
  | .local _ .vmem, ⟨3, _⟩ => ⟨S1x1x1024, .f32⟩
  | .local _ .vmem, ⟨4, _⟩ => ⟨S1x1024x256, .f32⟩
  | .local _ .vmem, ⟨5, _⟩ => ⟨S1x1024x256, .f32⟩
  | .local _ .vmem, ⟨6, _⟩ => ⟨S1x1024x256, .f32⟩
  | .local _ .vmem, ⟨7, _⟩ => ⟨S1x1024x256, .f32⟩
  | .local _ .vmem, ⟨8, _⟩ => ⟨S1x1024x1024, .f32⟩
  | .local _ .vmem, ⟨9, _⟩ => ⟨S1x1024x1024, .f32⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  reducesTo_S4x4096x256_S4x4096_d2 : S4x4096x256.ReducesTo [2] S4x4096
  h_S_ : 0 < S_.numel
  bcast_S4x4096_S4x4096x1_0_1 : S4x4096.BroadcastsInDim S4x4096x1 (![0, 1] : Fin 2 → Fin S4x4096x1.rank)
  transposes_S4x4096x1_S4x1x4096_0_2_1 : S4x4096x1.Transposes [0, 2, 1] S4x1x4096
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  bitsLt_bf16_f32 : FTy.bits .bf16 < FTy.bits .f32
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1024x1_S1024x1024 : S1024x1.Broadcasts S1024x1024
  broadcasts_S1x1024_S1024x1024 : S1x1024.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1.size a ≤ S4x4096x1.size a
  hwx0_0 : ∀ i : grid0.Coords, EltTy.bits .f32 = 32 ∨ (Rect.block (s := S4x4096x1) S1x1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024.size a ≤ S4x1x4096.size a
  hwx0_1 : ∀ i : grid0.Coords, EltTy.bits .f32 = 32 ∨ (Rect.block (s := S4x1x4096) S1x1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x256.size a ≤ S4x4096x256.size a
  hwx0_2 : ∀ i : grid0.Coords, EltTy.bits .f32 = 32 ∨ (Rect.block (s := S4x4096x256) S1x1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x256.size a ≤ S4x4096x256.size a
  hwx0_3 : ∀ i : grid0.Coords, EltTy.bits .f32 = 32 ∨ (Rect.block (s := S4x4096x256) S1x1024x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1024.size a ≤ S4x4096x4096.size a
  hwx0_4 : ∀ i : grid0.Coords, EltTy.bits .f32 = 32 ∨ (Rect.block (s := S4x4096x4096) S1x1024x1024.size (cc0_transform_4 i) (hinb0_4 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_v2) S1x1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x1024x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S4x4096x4096 : Shape := ⟨3, ![4, 4096, 4096]⟩

abbrev nBuf : Space → Nat
  | .hbm => 29
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S4x4096x256, .f32⟩
  | .hbm, ⟨2, _⟩ => ⟨S4x4096x256, .f32⟩
  | .hbm, ⟨3, _⟩ => ⟨S_, .f32⟩
  | .hbm, ⟨4, _⟩ => ⟨S4x4096, .f32⟩
  | .hbm, ⟨5, _⟩ => ⟨S4x4096x1, .f32⟩
  | .hbm, ⟨6, _⟩ => ⟨S4x4096x256, .f32⟩
  | .hbm, ⟨7, _⟩ => ⟨S_, .f32⟩
  | .hbm, ⟨8, _⟩ => ⟨S4x4096, .f32⟩
  | .hbm, ⟨9, _⟩ => ⟨S4x1x4096, .f32⟩
  | .hbm, ⟨10, _⟩ => ⟨S4x4096x4096, .f32⟩
  | .hbm, ⟨11, _⟩ => ⟨S_, .f32⟩
  | .hbm, ⟨12, _⟩ => ⟨S4x4096x4096, .f32⟩
  | .hbm, ⟨13, _⟩ => ⟨S4x4096x4096, .f32⟩
  | .hbm, ⟨14, _⟩ => ⟨S4x4096x4096, .f32⟩
  | .hbm, ⟨15, _⟩ => ⟨S4x4096x4096, .f32⟩
  | .hbm, ⟨16, _⟩ => ⟨S4x4096x4096, .f32⟩
  | .hbm, ⟨17, _⟩ => ⟨S4x4096x4096, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S4x4096x4096, .f32⟩
  | .hbm, ⟨22, _⟩ => ⟨S4x4096x4096, .f32⟩
  | .hbm, ⟨23, _⟩ => ⟨S_, .f32⟩
  | .hbm, ⟨24, _⟩ => ⟨S4x4096x4096, .f32⟩
  | .hbm, ⟨25, _⟩ => ⟨S4x4096x4096, .f32⟩
  | .hbm, ⟨26, _⟩ => ⟨S4x4096x4096, .f32⟩
  | .hbm, ⟨27, _⟩ => ⟨S4x4096x4096, .f32⟩
  | .hbm, ⟨28, _⟩ => ⟨S4x4096x4096, .f32⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_cst_3 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]

class Facts₀ : Prop where
  reducesTo_S4x4096x256_S4x4096_d2 : S4x4096x256.ReducesTo [2] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S_S4x4096x4096 : S_.BroadcastsInDim S4x4096x4096 (![] : Fin 0 → Fin S4x4096x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  dot_S4x4096x256_S4x4096x256_S4x4096x4096_2_2_1_1_0_0_wf : DotDims.WF S4x4096x256 S4x4096x256 S4x4096x4096 [2] [2] [1] [1] [0] [0]

variable [Facts₀]

def dot_S4x4096x256_S4x4096x256_S4x4096x4096_2_2_1_1_0_0 : DotDims S4x4096x256 S4x4096x256 S4x4096x4096 where
  lhsContracting := [2]
  rhsContracting := [2]
  lhsNonContracting := [1]
  rhsNonContracting := [1]
  lhsBatch := [0]
  rhsBatch := [0]
  wf := dot_S4x4096x256_S4x4096x256_S4x4096x4096_2_2_1_1_0_0_wf

class Facts : Prop extends Facts₀ where

variable [Facts]
-- ==== Proof.RbfSpec.lean ====
/-
  The specification: the Gaussian-of-distance affinity between two batched point sets, as one function of the two
  arrays, entry by entry, on the extended reals.

  For point arrays `x`, `y` of shape [4, 4096, 256] the entry `(b, n, p)` of the result is
  `exp (-(sqrt (clip (‖x b n‖² - 2 · ⟨x b n, y b p⟩ + ‖y b p‖²))))`, where the squared norm of a row is summed from the
  zero word (as a sum that starts from an initial value does), the inner product is the plain sum over the 256 features,
  and `clip` bounds its argument below by the float nearest 1e-12 and above by the float nearest 1e12. The three
  float constants are kept as their words: both programs spell the same words, so their values are never needed.
-/
import Idealize.ShloMosaic.PureOps.Ideal
import Idealize.ShloMosaic.Lib.ValueIdx

noncomputable section

open scoped BigOperators

namespace Cert.Rbf

open Idealize.ShloMosaic Idealize.ShloMosaic.ValueIdx

/-- A batch of 4 sets of 4096 points with 256 features. -/
abbrev Pts : Shape := ⟨3, ![4, 4096, 256]⟩
/-- One entry per batch and per pair of points. -/
abbrev Pairs : Shape := ⟨3, ![4, 4096, 4096]⟩

/-- The squared norm of point `r` of batch `b`: the zero word plus the sum of the squares of its features. -/
def sqnorm (x : FVec Ideal Pts .f32) (b : Fin 4) (r : Fin 4096) : EReal :=
  Ideal.ofBits .f32 0x00000000#32 + ∑ k : Fin 256, x (ix3 b r k) * x (ix3 b r k)

/-- The inner product of point `n` of `x` with point `p` of `y`, in batch `b`. -/
def cross (x y : FVec Ideal Pts .f32) (b : Fin 4) (n p : Fin 4096) : EReal :=
  ∑ k : Fin 256, x (ix3 b n k) * y (ix3 b p k)

/-- The squared distance by the polarisation identity's right-hand side, grouped as both programs group it:
    `(‖x‖² - 2 · ⟨x, y⟩) + ‖y‖²`. -/
def dist2 (x y : FVec Ideal Pts .f32) (b : Fin 4) (n p : Fin 4096) : EReal :=
  sqnorm x b n - Ideal.ofBits .f32 0x40000000#32 * cross x y b n p + sqnorm y b p

/-- The clipped squared distance: bounded below first, then above. -/
def clipped (x y : FVec Ideal Pts .f32) (b : Fin 4) (n p : Fin 4096) : EReal :=
  min (Ideal.ofBits .f32 0x5368D4A5#32) (max (Ideal.ofBits .f32 0x2B8CBCCC#32) (dist2 x y b n p))

/-- The affinity: `exp` of minus the (clipped) distance. -/
def rbf (x y : FVec Ideal Pts .f32) : FVec Ideal Pairs .f32 := fun i =>
  Ideal.exp (-(Ideal.sqrt (clipped x y (i 0) (i 1) (i 2))))

end Cert.Rbf

end
-- ==== Proof.RbfReference.lean ====
/-
  The reference computes the specification. Its last stage, read at an entry `i = (b, n, p)` one operation at a
  time: the exponential of the negation of the square root of the clipped value, the clip a minimum against the upper
  word of a maximum against the lower word, the clipped value `(na - 2 · inner) + nb`; `na` is the row sum of
  squares of `x` broadcast along the pair axis (so read at `(b, n)`), `nb` that of `y` broadcast along the other
  (read at `(b, p)`), and `inner` the batched product contracted over the features. Each composed index function is
  identified with the coordinates `(b, n, k)` or `(b, p, k)`, and what remains is the specification unfolded.
-/
import proofs.«156068_j61667140436151_1_alg».proof.Proof.Gen.ReferenceIdeal.Read
import proofs.«156068_j61667140436151_1_alg».proof.Proof.RbfSpec

noncomputable section

open scoped BigOperators

namespace Cert.Rbf.Reference

open Cert.ReferenceIdeal Cert.ReferenceIdeal.Read Idealize.ShloMosaic Idealize.ShloMosaic.ValueIdx Cert.Rbf

/-- The row of `x` behind `na` at entry `i`: through the three broadcasts the index is `(b, n, k)`. -/
theorem idx_na (i : S4x4096x4096.Idx) (k : Fin 256) :
    idx_main_v1 (idx_main_v2 (idx_main_v9 i)) k = ix3 (i 0) (i 1) k :=
  funext fun a => Fin.ext (by match a with | ⟨0, _⟩ => rfl | ⟨1, _⟩ => rfl | ⟨2, _⟩ => rfl)

/-- The row of `y` behind `nb` at entry `i`: `(b, p, k)`. -/
theorem idx_nb (i : S4x4096x4096.Idx) (k : Fin 256) :
    idx_main_v4 (idx_main_v5 (idx_main_v11 i)) k = ix3 (i 0) (i 2) k :=
  funext fun a => Fin.ext (by match a with | ⟨0, _⟩ => rfl | ⟨1, _⟩ => rfl | ⟨2, _⟩ => rfl)

/-- The left factor of the product at entry `i`: `(b, n, k)`. -/
theorem idx_l (i : S4x4096x4096.Idx) (k : Fin 256) : lidx_main_v6 i k = ix3 (i 0) (i 1) k :=
  funext fun a => Fin.ext (by match a with | ⟨0, _⟩ => rfl | ⟨1, _⟩ => rfl | ⟨2, _⟩ => rfl)

/-- The right factor: `(b, p, k)`. -/
theorem idx_r (i : S4x4096x4096.Idx) (k : Fin 256) : ridx_main_v6 i k = ix3 (i 0) (i 2) k :=
  funext fun a => Fin.ext (by match a with | ⟨0, _⟩ => rfl | ⟨1, _⟩ => rfl | ⟨2, _⟩ => rfl)

/-- The reference's result is the affinity of its two arguments. -/
theorem result_eq (x y : FVec Ideal Pts .f32) : val_main_v16 (F := Ideal) x y = rbf x y := by
  funext i
  rw [val_main_v16_apply, val_main_v15_apply, val_main_v14_apply, val_main_v13_apply, val_main_call0_v4_apply,
    val_main_call0_v2_apply, val_main_call0_v1_apply, val_main_v12_apply, val_main_v10_apply, val_main_v9_apply,
    val_main_v2_apply, val_main_v1_apply, val_main_v8_apply, val_main_v7_apply, val_main_v6_apply, val_main_v11_apply,
    val_main_v5_apply, val_main_v4_apply]
  simp only [idx_na, idx_nb, idx_l, idx_r]
  rfl

end Cert.Rbf.Reference

end
-- ==== Proof.RbfTile.lean ====
/-
  One output tile, entry by entry. The body takes a block of 1024 points of `x` and a block of 1024 points of `y`
  (each a [1, 1024, 256] array), the column of the first block's squared norms ([1, 1024, 1]) and the row of the
  second's ([1, 1, 1024]), and stores the [1, 1024, 1024] tile whose entry `(r, c)` is
  `exp (0 - sqrt (min hi (max lo ((na r - 2 · ∑ k, a r k · b c k) + nb c))))`:
  the product contracts both operands on their feature axis into a zero accumulator, so at the exact values it is the
  plain sum of products; the narrowing of the operands to a shorter float format is the identity on exact values; the
  column of norms is repeated along the tile's columns and the row of norms along its rows.
-/
import proofs.«156068_j61667140436151_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Rbf.Tile

open Cert.KernelIdeal Cert.KernelIdeal.Gen Idealize.ShloMosaic Idealize.ShloMosaic.ValueIdx

/-! ## The tile product read at an entry -/

theorem lhs_tile_0 (j : S1024x1024.Idx) (q : dot_S1024x256_S1024x256_S1024x1024_1_1_0_0_n_n.contr.Idx) :
    (dot_S1024x256_S1024x256_S1024x1024_1_1_0_0_n_n.lhsIdx j q 0).val = (j 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl
theorem lhs_tile_1 (j : S1024x1024.Idx) (q : dot_S1024x256_S1024x256_S1024x1024_1_1_0_0_n_n.contr.Idx) :
    (dot_S1024x256_S1024x256_S1024x1024_1_1_0_0_n_n.lhsIdx j q 1).val = (q ⟨0, by decide⟩).val :=
  dot_S1024x256_S1024x256_S1024x1024_1_1_0_0_n_n.lhsIdx_val_of_single rfl j q
theorem rhs_tile_0 (j : S1024x1024.Idx) (q : dot_S1024x256_S1024x256_S1024x1024_1_1_0_0_n_n.contr.Idx) :
    (dot_S1024x256_S1024x256_S1024x1024_1_1_0_0_n_n.rhsIdx j q 0).val = (j 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl
theorem rhs_tile_1 (j : S1024x1024.Idx) (q : dot_S1024x256_S1024x256_S1024x1024_1_1_0_0_n_n.contr.Idx) :
    (dot_S1024x256_S1024x256_S1024x1024_1_1_0_0_n_n.rhsIdx j q 1).val = (q ⟨0, by decide⟩).val :=
  dot_S1024x256_S1024x256_S1024x1024_1_1_0_0_n_n.rhsIdx_val_of_single rfl j q

/-- The product of a 1024×256 block with the transpose of another, into a zero accumulator, at entry `(r, c)`: the sum
    over the features of the products of row `r` of the first with row `c` of the second. -/
theorem product_apply (A B : FVec Ideal S1024x256 .bf16) (r c : Fin 1024) :
    matmul dot_S1024x256_S1024x256_S1024x1024_1_1_0_0_n_n none A B (constant S1024x1024 .f32 0x00000000#32) (ix2 r c)
      = ∑ k : Fin 256, A (ix2 r k) * B (ix2 c k) := by
  show FloatOps.matmul dot_S1024x256_S1024x256_S1024x1024_1_1_0_0_n_n none A B (constant S1024x1024 .f32 0x00000000#32) (ix2 r c) = _
  rw [Ideal.matmul_constant_zero_apply, ← Equiv.sum_comp (contrEquiv1 dot_S1024x256_S1024x256_S1024x1024_1_1_0_0_n_n 256 rfl rfl).symm]
  refine Finset.sum_congr rfl fun k _ => ?_
  have hk := contrEquiv1_symm_val dot_S1024x256_S1024x256_S1024x1024_1_1_0_0_n_n 256 rfl rfl k
  have el : dot_S1024x256_S1024x256_S1024x1024_1_1_0_0_n_n.lhsIdx (ix2 r c) ((contrEquiv1 dot_S1024x256_S1024x256_S1024x1024_1_1_0_0_n_n 256 rfl rfl).symm k) = ix2 r k := funext fun a => Fin.ext (by
    match a with
    | ⟨0, _⟩ => exact lhs_tile_0 _ _
    | ⟨1, _⟩ => exact (lhs_tile_1 _ _).trans hk)
  have er : dot_S1024x256_S1024x256_S1024x1024_1_1_0_0_n_n.rhsIdx (ix2 r c) ((contrEquiv1 dot_S1024x256_S1024x256_S1024x1024_1_1_0_0_n_n 256 rfl rfl).symm k) = ix2 c k := funext fun a => Fin.ext (by
    match a with
    | ⟨0, _⟩ => exact rhs_tile_0 _ _
    | ⟨1, _⟩ => exact (rhs_tile_1 _ _).trans hk)
  rw [el, er]

/-! ## A column repeated along the columns -/

/-- An [a, 1] column broadcast to [a, b], at `(p, q)`, is the column at row `p`. -/
theorem column_broadcast_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## The stored tile -/

/-- Entry `(r, c)` of the stored tile, from the four loaded blocks. -/
theorem payload_apply (xa xb : Vec Ideal S1x1024x256 .f32) (na : Vec Ideal S1x1024x1 .f32) (nb : Vec Ideal S1x1x1024 .f32)
    (u : Fin 1) (r c : Fin 1024) :
    k0_pay1 (F := Ideal) xa xb na nb (ix3 u r c)
      = Ideal.exp (Ideal.ofBits .f32 0x00000000#32 - Ideal.sqrt (min (Ideal.ofBits .f32 0x5368D4A5#32) (max (Ideal.ofBits .f32 0x2B8CBCCC#32)
          (na (ix3 (0 : Fin 1) r (0 : Fin 1)) - Ideal.ofBits .f32 0x40000000#32 * (∑ k : Fin 256, xa (ix3 (0 : Fin 1) r k) * xb (ix3 (0 : Fin 1) c k))
            + nb (ix3 (0 : Fin 1) (0 : Fin 1) c))))) := by
  unfold k0_pay1
  rw [shapeCast_ab_1ab_apply]
  simp only [exp, subf, sqrt, minimumf, maximumf, addf, mulf, broadcast]
  rw [product_apply, column_broadcast_apply, broadcastTo_1b_ab_apply, shapeCast_1ab_ab_apply, shapeCast_1ab_ab_apply]
  simp only [truncf_apply, shapeCast_1ab_ab_apply]
  rfl

end Cert.Rbf.Tile

end
-- ==== Proof.RbfNorms.lean ====
/-
  The two arrays of squared norms that the host computes before the region, read at an index.

  Before the tiles are computed, the squares of each argument array are summed along the feature axis (from the zero
  word), the sums are laid out as a [4, 4096, 1] column, and for the second argument that column is transposed to a
  [4, 1, 4096] row. So the first array at `(b, r, 0)` is the squared norm of point `r` of batch `b` of the first
  argument, and the second at `(b, 0, p)` is the squared norm of point `p` of batch `b` of the second.
-/
import proofs.«156068_j61667140436151_1_alg».proof.Proof.Gen.KernelIdeal.Frame
import proofs.«156068_j61667140436151_1_alg».proof.Proof.RbfSpec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

open scoped BigOperators

namespace Cert.Rbf.Norms

open Cert.KernelIdeal Cert.KernelIdeal.Gen Idealize.ShloMosaic Idealize.ShloMosaic.TcCoe Idealize.ShloMosaic.ValueIdx
open Idealize.SL.Sem Idealize.ShloMosaic.StableHlo Cert.Rbf

variable (m : (ℓ : Loc nD τ sig) → Buf (Elt Ideal) ℓ)

/-- The first argument array as launched, on core `c`. -/
abbrev xarr (c : Dev nD) : FVec Ideal Pts .f32 := m ((c : Thread nD τ).loc main_arg0)
/-- The second argument array as launched, on core `c`. -/
abbrev yarr (c : Dev nD) : FVec Ideal Pts .f32 := m ((c : Thread nD τ).loc main_arg1)

/-- The sum of squares along the feature axis, at `(b, r)`: the squared norm of that point. -/
theorem rowsq_apply (x : FVec Ideal S4x4096x256 .f32) (b : Fin 4) (r : Fin 4096) :
    Host.reduceAdd (F := Ideal) (mulf x x) (constant S_ .f32 0x00000000#32) reducesTo_S4x4096x256_S4x4096_d2 h_S_ (ix2 b r)
      = sqnorm x b r := by
  simp only [Host.reduceAdd, Ideal.hostReduceAdd_def]
  rw [Ideal.hostReduceAdd_single reducesTo_S4x4096x256_S4x4096_d2 (by decide)]
  unfold sqnorm
  refine congrArg (_ + ·) (Finset.sum_congr rfl fun k _ => ?_)
  exact congrArg (mulf x x) (funext fun a => Fin.ext (by match a with | ⟨0, _⟩ => rfl | ⟨1, _⟩ => rfl | ⟨2, _⟩ => rfl))

/-- The column of squared norms, as the host operations before the region compute it. -/
theorem column_eq (c : Dev nD) : (V m c main_v2 : S4x4096x1.Idx → EReal)
    = broadcastInDim S4x4096x1 ![0, 1] bcast_S4x4096_S4x4096x1_0_1
        (Host.reduceAdd (F := Ideal) (mulf (xarr m c) (xarr m c)) (constant (F := Ideal) S_ .f32 0x00000000#32) reducesTo_S4x4096x256_S4x4096_d2 h_S_) := by
  dsimp only [Gen.V, Gen.hostOps0]; after_results <;> rfl

/-- The row of squared norms: the same column for the second argument, transposed. -/
theorem row_eq (c : Dev nD) : (V m c main_v6 : S4x1x4096.Idx → EReal)
    = transpose S4x1x4096 [0, 2, 1] (broadcastInDim S4x4096x1 ![0, 1] bcast_S4x4096_S4x4096x1_0_1
        (Host.reduceAdd (F := Ideal) (mulf (yarr m c) (yarr m c)) (constant (F := Ideal) S_ .f32 0x00000000#32) reducesTo_S4x4096x256_S4x4096_d2 h_S_))
        transposes_S4x4096x1_S4x1x4096_0_2_1 := by
  dsimp only [Gen.V, Gen.hostOps0]; after_results <;> rfl

/-- A [4, 4096] array laid out as a [4, 4096, 1] column, at `(b, r, z)`, is the array at `(b, r)`. -/
theorem keepdims_apply (v : FVec Ideal S4x4096 .f32) (b : Fin 4) (r : Fin 4096) (z : Fin 1) :
    broadcastInDim S4x4096x1 ![0, 1] bcast_S4x4096_S4x4096x1_0_1 v (ix3 b r z) = v (ix2 b r) :=
  broadcastInDim_apply _ bcast_S4x4096_S4x4096x1_0_1 v (ix3 b r z) (ix2 b r) (fun a => match a with
    | ⟨0, _⟩ => by show b.val = if (4 : Nat) = 1 then 0 else b.val; rw [if_neg (by decide)]
    | ⟨1, _⟩ => by show r.val = if (4096 : Nat) = 1 then 0 else r.val; rw [if_neg (by decide)])

/-- The column at `(b, r, z)` is the squared norm of point `r` of batch `b` of the first argument. -/
theorem column_apply (c : Dev nD) (b : Fin 4) (r : Fin 4096) (z : Fin 1) :
    (V m c main_v2 : S4x4096x1.Idx → EReal) (ix3 b r z) = sqnorm (xarr m c) b r := by
  rw [column_eq, keepdims_apply]
  exact rowsq_apply _ b r

/-- The row at `(b, z, p)` is the squared norm of point `p` of batch `b` of the second argument. -/
theorem row_apply (c : Dev nD) (b : Fin 4) (z : Fin 1) (p : Fin 4096) :
    (V m c main_v6 : S4x1x4096.Idx → EReal) (ix3 b z p) = sqnorm (yarr m c) b p := by
  rw [row_eq, transpose_ix3_021_apply, keepdims_apply]
  exact rowsq_apply _ b p

end Cert.Rbf.Norms

end
-- ==== Proof.RbfTiles.lean ====
/-
  From tiles to the whole array. The grid has 4 × 4 × 4 points; point `t`, with block indices `(b, i, j)`, reads rows
  `1024·i …` of batch `b` of the first argument and of its column of norms, rows `1024·j …` of batch `b` of the second
  and of its row of norms, and writes the [1, 1024, 1024] tile at `(b, 1024·i, 1024·j)` of the result. An entry of a
  block sits in its array at block index × block size + its coordinate inside the block, axis by axis; so the tile's
  entry `(u, r, q)` is the specification at `(b + u, 1024·i + r, 1024·j + q)`, the norms and the features being
  read at exactly those rows. The 64 tiles cover the result: entry `(b, n, p)` lies in the tile with block indices
  `(b, n / 1024, p / 1024)`. Hence the result array after the run is the specification of the two arguments.
-/
import proofs.«156068_j61667140436151_1_alg».proof.Proof.Gen.KernelIdeal.Value
import proofs.«156068_j61667140436151_1_alg».proof.Proof.RbfSpec
import proofs.«156068_j61667140436151_1_alg».proof.Proof.RbfTile
import proofs.«156068_j61667140436151_1_alg».proof.Proof.RbfNorms

set_option maxRecDepth 16384

noncomputable section

open scoped BigOperators

namespace Cert.Rbf.Tiles

open Cert.KernelIdeal Cert.KernelIdeal.Gen Idealize.ShloMosaic Idealize.ShloMosaic.TcCoe Idealize.ShloMosaic.ValueIdx
open Idealize.SL.Sem Cert.Rbf Cert.Rbf.Norms Cert.Rbf.Tile
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- The index maps, decided over the 64 points: every input window follows the output's batch index; the first
    argument and its norms follow the output's row-block index, the second and its norms the output's column-block
    index; the remaining block indices are zero; the output's block indices are below 4. -/
theorem idx_facts : ∀ t : Fin cfg0.N,
    win0_0.index t (0 : Fin 3) = win0_4.index t (0 : Fin 3) ∧ win0_0.index t (1 : Fin 3) = win0_4.index t (1 : Fin 3) ∧ win0_0.index t (2 : Fin 3) = 0
    ∧ win0_1.index t (0 : Fin 3) = win0_4.index t (0 : Fin 3) ∧ win0_1.index t (1 : Fin 3) = 0 ∧ win0_1.index t (2 : Fin 3) = win0_4.index t (2 : Fin 3)
    ∧ win0_2.index t (0 : Fin 3) = win0_4.index t (0 : Fin 3) ∧ win0_2.index t (1 : Fin 3) = win0_4.index t (1 : Fin 3) ∧ win0_2.index t (2 : Fin 3) = 0
    ∧ win0_3.index t (0 : Fin 3) = win0_4.index t (0 : Fin 3) ∧ win0_3.index t (1 : Fin 3) = win0_4.index t (2 : Fin 3) ∧ win0_3.index t (2 : Fin 3) = 0 :=
  (by decide +kernel : ∀ t : Fin grid0.N, _)

/-- Every triple of block indices below 4 is some point's. -/
theorem idx_onto : ∀ (q0 : Fin 4) (q1 : Fin 4) (q2 : Fin 4), ∃ t : Fin cfg0.N, win0_4.index t = ![q0.val, q1.val, q2.val] :=
  (by decide +kernel : ∀ (q0 : Fin 4) (q1 : Fin 4) (q2 : Fin 4), ∃ t : Fin grid0.N, win0_4.index t = ![q0.val, q1.val, q2.val])

/-- Where entry `j` of point `t`'s tile sits in the result array. -/
abbrev spot (t : Fin cfg0.N) (j : ((cfg0.win 4).xblock (grid0.coords t)).Idx) : S4x4096x4096.Idx :=
  ((cfg0.win 4).blk t).view.emb j

/-! ## The input blocks, read where the tile's entry says -/

/-- The column of norms at point `t`, at a row with the tile entry's row coordinate: the squared norm of the first
    argument's point at the entry's batch and row. -/
theorem norms_x_blk (c : Dev nD) (t : Fin cfg0.N) (j : ((cfg0.win 4).xblock (grid0.coords t)).Idx)
    (y : ((cfg0.win 0).xblock (grid0.coords t)).Idx) (hy : (y 1).val = (j 1).val) :
    iblk m c 0 t y = sqnorm (xarr m c) (spot t j 0) (spot t j 1) := by
  obtain ⟨e00, e01, e02, -⟩ := idx_facts t
  have hu : (j 0).val < 1 := (j 0).isLt
  have hy0 : (y 0).val < 1 := (y 0).isLt
  have hy2 : (y 2).val < 1 := (y 2).isLt
  show (V m c main_v2 : S4x4096x1.Idx → EReal) (((cfg0.win 0).blk t).view.emb y) = _
  have he : ((cfg0.win 0).blk t).view.emb y = ix3 (spot t j 0) (spot t j 1) (0 : Fin 1) := by
    funext a; apply Fin.ext
    match a with
    | ⟨0, _⟩ => show win0_0.index t (0 : Fin 3) * 1 + 1 * (y 0).val = win0_4.index t (0 : Fin 3) * 1 + 1 * (j 0).val; omega
    | ⟨1, _⟩ => show win0_0.index t (1 : Fin 3) * 1024 + 1 * (y 1).val = win0_4.index t (1 : Fin 3) * 1024 + 1 * (j 1).val; omega
    | ⟨2, _⟩ => show win0_0.index t (2 : Fin 3) * 1 + 1 * (y 2).val = 0; omega
  rw [he]
  exact column_apply m c _ _ _

/-- The row of norms at point `t`, at a column with the tile entry's column coordinate: the squared norm of the
    second argument's point at the entry's batch and column. -/
theorem norms_y_blk (c : Dev nD) (t : Fin cfg0.N) (j : ((cfg0.win 4).xblock (grid0.coords t)).Idx)
    (y : ((cfg0.win 1).xblock (grid0.coords t)).Idx) (hy : (y 2).val = (j 2).val) :
    iblk m c 1 t y = sqnorm (yarr m c) (spot t j 0) (spot t j 2) := by
  obtain ⟨-, -, -, e10, e11, e12, -⟩ := idx_facts t
  have hu : (j 0).val < 1 := (j 0).isLt
  have hy0 : (y 0).val < 1 := (y 0).isLt
  have hy1 : (y 1).val < 1 := (y 1).isLt
  show (V m c main_v6 : S4x1x4096.Idx → EReal) (((cfg0.win 1).blk t).view.emb y) = _
  have he : ((cfg0.win 1).blk t).view.emb y = ix3 (spot t j 0) (0 : Fin 1) (spot t j 2) := by
    funext a; apply Fin.ext
    match a with
    | ⟨0, _⟩ => show win0_1.index t (0 : Fin 3) * 1 + 1 * (y 0).val = win0_4.index t (0 : Fin 3) * 1 + 1 * (j 0).val; omega
    | ⟨1, _⟩ => show win0_1.index t (1 : Fin 3) * 1 + 1 * (y 1).val = 0; omega
    | ⟨2, _⟩ => show win0_1.index t (2 : Fin 3) * 1024 + 1 * (y 2).val = win0_4.index t (2 : Fin 3) * 1024 + 1 * (j 2).val; omega
  rw [he]
  exact row_apply m c _ _ _

/-- The first argument's block at point `t`, at a row with the tile entry's row coordinate and feature `k`: the first
    argument at the entry's batch and row, feature `k`. -/
theorem points_x_blk (c : Dev nD) (t : Fin cfg0.N) (j : ((cfg0.win 4).xblock (grid0.coords t)).Idx)
    (y : ((cfg0.win 2).xblock (grid0.coords t)).Idx) (k : Fin 256) (hy : (y 1).val = (j 1).val) (hk : (y 2).val = k.val) :
    iblk m c 2 t y = xarr m c (ix3 (spot t j 0) (spot t j 1) k) := by
  obtain ⟨-, -, -, -, -, -, e20, e21, e22, -⟩ := idx_facts t
  have hu : (j 0).val < 1 := (j 0).isLt
  have hy0 : (y 0).val < 1 := (y 0).isLt
  show V m c main_arg0 (((cfg0.win 2).blk t).view.emb y) = _
  rw [V_main_arg0]
  refine congrArg (xarr m c) ?_
  funext a; apply Fin.ext
  match a with
  | ⟨0, _⟩ => show win0_2.index t (0 : Fin 3) * 1 + 1 * (y 0).val = win0_4.index t (0 : Fin 3) * 1 + 1 * (j 0).val; omega
  | ⟨1, _⟩ => show win0_2.index t (1 : Fin 3) * 1024 + 1 * (y 1).val = win0_4.index t (1 : Fin 3) * 1024 + 1 * (j 1).val; omega
  | ⟨2, _⟩ => show win0_2.index t (2 : Fin 3) * 256 + 1 * (y 2).val = k.val; omega

/-- The second argument's block at point `t`, at a row with the tile entry's COLUMN coordinate and feature `k`: the
    second argument at the entry's batch and column, feature `k`. -/
theorem points_y_blk (c : Dev nD) (t : Fin cfg0.N) (j : ((cfg0.win 4).xblock (grid0.coords t)).Idx)
    (y : ((cfg0.win 3).xblock (grid0.coords t)).Idx) (k : Fin 256) (hy : (y 1).val = (j 2).val) (hk : (y 2).val = k.val) :
    iblk m c 3 t y = yarr m c (ix3 (spot t j 0) (spot t j 2) k) := by
  obtain ⟨-, -, -, -, -, -, -, -, -, e30, e31, e32⟩ := idx_facts t
  have hu : (j 0).val < 1 := (j 0).isLt
  have hy0 : (y 0).val < 1 := (y 0).isLt
  show V m c main_arg1 (((cfg0.win 3).blk t).view.emb y) = _
  rw [V_main_arg1]
  refine congrArg (yarr m c) ?_
  funext a; apply Fin.ext
  match a with
  | ⟨0, _⟩ => show win0_3.index t (0 : Fin 3) * 1 + 1 * (y 0).val = win0_4.index t (0 : Fin 3) * 1 + 1 * (j 0).val; omega
  | ⟨1, _⟩ => show win0_3.index t (1 : Fin 3) * 1024 + 1 * (y 1).val = win0_4.index t (2 : Fin 3) * 1024 + 1 * (j 2).val; omega
  | ⟨2, _⟩ => show win0_3.index t (2 : Fin 3) * 256 + 1 * (y 2).val = k.val; omega

/-! ## A tile is the specification's block -/

/-- Entry `j` of what point `t` stores is the specification at that entry's place in the result. -/
theorem tile_eq (c : Dev nD) (t : Fin cfg0.N) (j : ((cfg0.win 4).xblock (grid0.coords t)).Idx) :
    (cfg0.win 4).cut (grid0.coords t) (k0_pay1 (F := Ideal) (iblk m c 2 t) (iblk m c 3 t) (iblk m c 0 t) (iblk m c 1 t)) j
      = rbf (xarr m c) (yarr m c) (spot t j) := by
  have hu : (j 0).val < 1 := (j 0).isLt
  have hr : (j 1).val < 1024 := (j 1).isLt
  have hq : (j 2).val < 1024 := (j 2).isLt
  have hx : (cfg0.win 4).xinj (grid0.coords t) j
      = ix3 (⟨(j 0).val, hu⟩ : Fin 1) (⟨(j 1).val, hr⟩ : Fin 1024) (⟨(j 2).val, hq⟩ : Fin 1024) :=
    funext fun a => Fin.ext (by match a with | ⟨0, _⟩ => rfl | ⟨1, _⟩ => rfl | ⟨2, _⟩ => rfl)
  refine (congrArg (k0_pay1 (F := Ideal) (iblk m c 2 t) (iblk m c 3 t) (iblk m c 0 t) (iblk m c 1 t)) hx).trans ?_
  refine (payload_apply (iblk m c 2 t) (iblk m c 3 t) (iblk m c 0 t) (iblk m c 1 t) ⟨(j 0).val, hu⟩ ⟨(j 1).val, hr⟩ ⟨(j 2).val, hq⟩).trans ?_
  rw [Ideal.ofBits_zero_f32, zero_sub]
  unfold rbf clipped dist2 cross
  refine congrArg (fun z => Ideal.exp (-(Ideal.sqrt (min (Ideal.ofBits .f32 0x5368D4A5#32) (max (Ideal.ofBits .f32 0x2B8CBCCC#32) z))))) ?_
  refine congrArg₂ (· + ·) (congrArg₂ (· - ·) (norms_x_blk m c t j _ rfl) (congrArg (Ideal.ofBits .f32 0x40000000#32 * ·) (Finset.sum_congr rfl fun k _ => ?_))) (norms_y_blk m c t j _ rfl)
  exact congrArg₂ (· * ·) (points_x_blk m c t j _ k rfl rfl) (points_y_blk m c t j _ k rfl rfl)

/-- WHAT POINT `t` WRITES BACK is block `t` of the specification of the two arguments. -/
theorem flushed_eq (c : Dev nD) (t : Fin cfg0.N) :
    (dats m 0 c).flushed 4 t = ((cfg0.win 4).blk t).view.read (Elt Ideal) (rbf (xarr m c) (yarr m c)) := by
  rw [Cert.KernelIdeal.Value.flushed4]
  unfold out0_4
  rw [View.canon_unit_zero hz]
  simp only [View.ld_unit_zero (S := S1x1024x256) hz, View.ld_unit_zero (S := S1x1024x1) hz, View.ld_unit_zero (S := S1x1x1024) hz]
  funext j
  exact tile_eq m c t j

/-! ## The tiles cover the result -/

/-- An index of the result is in point `t`'s tile iff each coordinate is in the tile's range on its axis. -/
theorem mem_blk (t : Fin cfg0.N) (i : S4x4096x4096.Idx) :
    i ∈ ((cfg0.win 4).blk t).view.set ↔ ∀ a : Fin 3, win0_4.index t a * S1x1024x1024.size a ≤ (i a).val ∧ (i a).val < win0_4.index t a * S1x1024x1024.size a + S1x1024x1024.size a := by
  show i ∈ ((View.whole main_v7).slice (win0_4.rect t)).set ↔ _
  rw [View.set_slice_whole, Rect.mem_set_unit]
  exact Iff.rfl

/-- Every entry of the result is in some tile: the one with block indices `(b, n / 1024, p / 1024)`. -/
theorem cover (i : S4x4096x4096.Idx) : ∃ t : Fin cfg0.N, (cfg0.win 4).flush t = true ∧ i ∈ ((cfg0.win 4).blk t).view.set := by
  have h0 : (i 0).val < 4 := (i 0).isLt
  have h1 : (i 1).val < 4096 := (i 1).isLt
  have h2 : (i 2).val < 4096 := (i 2).isLt
  obtain ⟨t, ht⟩ := idx_onto ⟨(i 0).val, h0⟩ ⟨(i 1).val / 1024, by omega⟩ ⟨(i 2).val / 1024, by omega⟩
  have q0 : win0_4.index t (0 : Fin 3) = (i 0).val := congrFun ht 0
  have q1 : win0_4.index t (1 : Fin 3) = (i 1).val / 1024 := congrFun ht 1
  have q2 : win0_4.index t (2 : Fin 3) = (i 2).val / 1024 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 1024 ≤ (i 2).val ∧ (i 2).val < win0_4.index t (2 : Fin 3) * 1024 + 1024; omega

/-! ## The result array, and the run -/

/-- THE RESULT ARRAY after the run is the specification of the two arguments as launched. -/
theorem final (c : Dev nD) : (dats m 0 c).arrAt 4 cfg0.N = rbf (xarr m c) (yarr m c) :=
  (dats m 0 c).arrAt_eq_of_cover 4 (rbf (xarr m c) (yarr m c)) (fun t _ => flushed_eq m c t) cover

/-- The run: every weakly fair execution ends with the result at the specification, the arguments unchanged. -/
theorem run : θ_run defs (onTc (τ := τ) (main (F := Ideal))) ⟨m, fun _ => 0, ρ⟩ fun r => ∀ c : Dev nD,
      r.2.mem ((c : Thread nD τ).loc main_v7) = rbf (xarr m c) (yarr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.Rbf.Tiles

end
-- ==== Proof.lean ====
/-
  The certificate of a tiled Gaussian-of-distance kernel against its plain reference.

  Both programs take two batches of 4096 points with 256 features, `x` and `y` of shape [4, 4096, 256], and return the
  [4, 4096, 4096] array whose entry `(b, n, p)` is `exp (-(sqrt (clip (‖x b n‖² - 2 · ⟨x b n, y b p⟩ + ‖y b p‖²))))`
  (Proof/RbfSpec.lean: the function `rbf`). The reference computes it whole: row sums of squares, one batched product
  contracted over the features, the clip as a maximum then a minimum, square root, negation, exponential
  (Proof/RbfReference.lean reads its run one operation at a time). The kernel computes the two arrays of squared norms
  on the host, then 4 × 4 × 4 tiles of 1024 × 1024 entries, each from a block of 1024 points of `x`, a block of 1024
  points of `y` and the matching norms: the tile product contracts both blocks over the features into a zero
  accumulator, and on exact values that is the plain sum of products, the operands' narrowing to a shorter float format
  being the identity (Proof/RbfTile.lean); the norms are read where the tile's rows and columns sit
  (Proof/RbfNorms.lean); and the 64 tiles cover the result (Proof/RbfTiles.lean). The kernel negates by subtracting
  from the zero word, the reference by negation: on the extended reals `0 - s = -s` for every `s`. No law used here
  needs the inputs to be finite: the two sides are the same sums, grouped the same way.

  The three frames are the generated ones (the reference's is its generated run with the result dropped); the
  idealization rewrote nothing, so `preserves` is trivial.
-/
import proofs.«156068_j61667140436151_1_alg».proof.Defs
import proofs.«156068_j61667140436151_1_alg».proof.Proof.Gen.Kernel
import proofs.«156068_j61667140436151_1_alg».proof.Proof.Gen.Kernel.Skeleton
import proofs.«156068_j61667140436151_1_alg».proof.Proof.Gen.Kernel.Launch
import proofs.«156068_j61667140436151_1_alg».proof.Proof.Gen.Kernel.Points
import proofs.«156068_j61667140436151_1_alg».proof.Proof.Gen.Kernel.Frame
import proofs.«156068_j61667140436151_1_alg».proof.Proof.Gen.KernelIdeal
import proofs.«156068_j61667140436151_1_alg».proof.Proof.Gen.KernelIdeal.Skeleton
import proofs.«156068_j61667140436151_1_alg».proof.Proof.Gen.KernelIdeal.Launch
import proofs.«156068_j61667140436151_1_alg».proof.Proof.Gen.KernelIdeal.Points
import proofs.«156068_j61667140436151_1_alg».proof.Proof.Gen.KernelIdeal.Frame
import proofs.«156068_j61667140436151_1_alg».proof.Proof.Gen.ReferenceIdeal
import proofs.«156068_j61667140436151_1_alg».proof.Proof.Gen.Pre_finite_inputs
import proofs.«156068_j61667140436151_1_alg».proof.Proof.Gen.KernelIdeal.Value
import proofs.«156068_j61667140436151_1_alg».proof.Proof.Gen.ReferenceIdeal.Run
import proofs.«156068_j61667140436151_1_alg».proof.Proof.Gen.ReferenceIdeal.Read
import proofs.«156068_j61667140436151_1_alg».proof.Proof.RbfSpec
import proofs.«156068_j61667140436151_1_alg».proof.Proof.RbfReference
import proofs.«156068_j61667140436151_1_alg».proof.Proof.RbfTiles
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read on exact values. -/
theorem frame_ideal : Cert.frame_KernelIdeal := fun m ρ _ => Cert.KernelIdeal.Gen.frame m ρ

/-- So does the reference: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the two arguments, the kernel's result array ends at the affinity of its arguments
    (the tiles cover it) and the reference's at the affinity of its own (its run read back): the same array. -/
theorem algebraic : Cert.algebraic_KernelIdeal_ReferenceIdeal := by
  intro m ρ m' ρ' _ hagree
  refine ⟨fun c => Cert.Rbf.rbf (Cert.Rbf.Norms.xarr m c) (Cert.Rbf.Norms.yarr m c), Cert.Rbf.Tiles.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.Rbf.Reference.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
